-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x50176 : Shape := ⟨2, ![256, 50176]⟩
abbrev S_ : Shape := ⟨0, ![]⟩

class Facts : Prop where
  bcast_S_S256x50176 : S_.BroadcastsInDim S256x50176 (![] : Fin 0 → Fin S256x50176.rank)
  reducesTo_S256x50176_S_d0_1 : S256x50176.ReducesTo [0, 1] S_
  h_S_ : 0 < S_.numel

variable [Facts]

def fn {F : FTy → Type} [FloatOps F] (main_arg0 : FVec F S256x50176 .f32) (main_arg1 : FVec F S256x50176 .f32) : IVec S_ 1 :=
  let main_v0 : FVec F S256x50176 .f32 := Host.absf main_arg0
  let main_cst : FVec F S_ .f32 := constant S_ .f32 0x7F800000#32
  let main_v1 : FVec F S256x50176 .f32 := broadcastInDim S256x50176 ![] bcast_S_S256x50176 main_cst
  let main_v2 : IVec S256x50176 1 := cmpf .olt main_v0 main_v1
  let main_c : IVec S_ 1 := constantI S_ 1 1#1
  let main_v3 : IVec S_ 1 := (fun x v => Host.reduce IntOp.andi x v reducesTo_S256x50176_S_d0_1 h_S_) main_v2 main_c
  let main_v4 : FVec F S256x50176 .f32 := Host.absf main_arg1
  let main_cst_0 : FVec F S_ .f32 := constant S_ .f32 0x7F800000#32
  let main_v5 : FVec F S256x50176 .f32 := broadcastInDim S256x50176 ![] bcast_S_S256x50176 main_cst_0
  let main_v6 : IVec S256x50176 1 := cmpf .olt main_v4 main_v5
  let main_c_1 : IVec S_ 1 := constantI S_ 1 1#1
  let main_v7 : IVec S_ 1 := (fun x v => Host.reduce IntOp.andi x v reducesTo_S256x50176_S_d0_1 h_S_) main_v6 main_c_1
  let main_v8 : IVec S_ 1 := andi main_v3 main_v7
  main_v8
-- ==== Kernel.lean ====
abbrev S256x50176 : Shape := ⟨2, ![256, 50176]⟩
abbrev S1x50176 : Shape := ⟨2, ![1, 50176]⟩
abbrev S_ : Shape := ⟨0, ![]⟩
abbrev S256x3584 : Shape := ⟨2, ![256, 3584]⟩
abbrev S1x3584 : Shape := ⟨2, ![1, 3584]⟩
abbrev S3584 : Shape := ⟨1, ![3584]⟩

abbrev nBuf : Space → Nat
  | .hbm => 19
  | .vmem => 8
  | .smem => 0
  | _ => 0

abbrev bufTy : (tb : Table) → Fin (tcTables nBuf tb) → BufTy
  | .hbm, ⟨0, _⟩ => ⟨S256x50176, .f32⟩
  | .hbm, ⟨1, _⟩ => ⟨S256x50176, .f32⟩
  | .hbm, ⟨2, _⟩ => ⟨S1x50176, .f32⟩
  | .hbm, ⟨3, _⟩ => ⟨S1x50176, .f32⟩
  | .hbm, ⟨4, _⟩ => ⟨S_, .f32⟩
  | .hbm, ⟨5, _⟩ => ⟨S1x50176, .f32⟩
  | .hbm, ⟨6, _⟩ => ⟨S1x50176, .i1⟩
  | .hbm, ⟨7, _⟩ => ⟨S_, .f32⟩
  | .hbm, ⟨8, _⟩ => ⟨S1x50176, .f32⟩
  | .hbm, ⟨9, _⟩ => ⟨S1x50176, .f32⟩
  | .hbm, ⟨10, _⟩ => ⟨S1x50176, .f32⟩
  | .hbm, ⟨11, _⟩ => ⟨S_, .f32⟩
  | .hbm, ⟨12, _⟩ => ⟨S_, .f32⟩
  | .hbm, ⟨13, _⟩ => ⟨S1x50176, .f32⟩
  | .hbm, ⟨14, _⟩ => ⟨S1x50176, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .local _ .vmem, ⟨0, _⟩ => ⟨S256x3584, .f32⟩
  | .local _ .vmem, ⟨1, _⟩ => ⟨S256x3584, .f32⟩
  | .local _ .vmem, ⟨2, _⟩ => ⟨S256x3584, .f32⟩
  | .local _ .vmem, ⟨3, _⟩ => ⟨S256x3584, .f32⟩
  | .local _ .vmem, ⟨4, _⟩ => ⟨S1x3584, .f32⟩
  | .local _ .vmem, ⟨5, _⟩ => ⟨S1x3584, .f32⟩
  | .local _ .vmem, ⟨6, _⟩ => ⟨S1x3584, .f32⟩
  | .local _ .vmem, ⟨7, _⟩ => ⟨S1x3584, .f32⟩
  | _, _ => ⟨S256x50176, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0_0 : Ref sig .tc := ⟨.hbm, 2, rfl⟩
abbrev main_call0_v0_1 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_call0_cst_0 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_cst_1 : Ref sig .tc := ⟨.hbm, 11, rfl⟩
abbrev main_call0_call0_v0 : Ref sig .tc := ⟨.hbm, 12, rfl⟩
abbrev main_call0_call0_v1 : Ref sig .tc := ⟨.hbm, 13, rfl⟩
abbrev main_call0_v6 : Ref sig .tc := ⟨.hbm, 14, rfl⟩
abbrev main_call0_cst_2 : Ref sig .tc := ⟨.hbm, 15, rfl⟩
abbrev main_call0_v7 : Ref sig .tc := ⟨.hbm, 16, rfl⟩
abbrev main_call0_cst_3 : Ref sig .tc := ⟨.hbm, 17, rfl⟩
abbrev main_v0 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![14], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x3584 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x3584 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x3584 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x3584 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S1x50176 : S_.BroadcastsInDim S1x50176 (![] : Fin 0 → Fin S1x50176.rank)
  reducesTo_S1x50176_S_d0_1 : S1x50176.ReducesTo [0, 1] S_
  h_S_ : 0 < S_.numel
  inb_S256x3584_S256x3584_0_0 : ∀ a, (![0, 0] : Fin 2 → Nat) a + S256x3584.size a ≤ S256x3584.size a
  h_S256x3584 : 0 < S256x3584.numel
  natLt_1_32 : 1 < 32
  reduces_S256x3584_S3584 : S256x3584.Reduces [0] S3584
  shapeCasts_S3584_S1x3584 : S3584.ShapeCasts S1x3584
  inb_S1x3584_S1x3584_0_0 : ∀ a, (![0, 0] : Fin 2 → Nat) a + S1x3584.size a ≤ S1x3584.size a
  h_S1x3584 : 0 < S1x3584.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x3584.size a ≤ S256x50176.size a
  hwx0_0 : ∀ i : grid0.Coords, EltTy.bits .f32 = 32 ∨ (Rect.block (s := S256x50176) S256x3584.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x3584.size a ≤ S256x50176.size a
  hwx0_1 : ∀ i : grid0.Coords, EltTy.bits .f32 = 32 ∨ (Rect.block (s := S256x50176) S256x3584.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3584.size a ≤ S1x50176.size a
  hwx0_2 : ∀ i : grid0.Coords, EltTy.bits .f32 = 32 ∨ (Rect.block (s := S1x50176) S1x3584.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x3584.size a ≤ S1x50176.size a
  hwx0_3 : ∀ i : grid0.Coords, EltTy.bits .f32 = 32 ∨ (Rect.block (s := S1x50176) S1x3584.size (cc0_transform_3 i) (hinb0_3 i)).WholeWords (EltTy.packing .f32)

variable [Facts₀]

abbrev win0_0 : Pipeline.Window sig grid0 :=
  Pipeline.Window.ofSpec (Memref.whole main_arg0) S256x3584.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x3584.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0_0) S1x3584.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0_1) S1x3584.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S256x50176 : Shape := ⟨2, ![256, 50176]⟩
abbrev S_ : Shape := ⟨0, ![]⟩
abbrev S50176 : Shape := ⟨1, ![50176]⟩

abbrev nBuf : Space → Nat
  | .hbm => 28
  | .vmem => 0
  | .smem => 0
  | _ => 0

abbrev bufTy : (tb : Table) → Fin (tcTables nBuf tb) → BufTy
  | .hbm, ⟨0, _⟩ => ⟨S256x50176, .f32⟩
  | .hbm, ⟨1, _⟩ => ⟨S256x50176, .f32⟩
  | .hbm, ⟨2, _⟩ => ⟨S256x50176, .f32⟩
  | .hbm, ⟨3, _⟩ => ⟨S256x50176, .f32⟩
  | .hbm, ⟨4, _⟩ => ⟨S_, .f32⟩
  | .hbm, ⟨5, _⟩ => ⟨S256x50176, .f32⟩
  | .hbm, ⟨6, _⟩ => ⟨S256x50176, .i1⟩
  | .hbm, ⟨7, _⟩ => ⟨S256x50176, .f32⟩
  | .hbm, ⟨8, _⟩ => ⟨S256x50176, .f32⟩
  | .hbm, ⟨9, _⟩ => ⟨S_, .f32⟩
  | .hbm, ⟨10, _⟩ => ⟨S50176, .f32⟩
  | .hbm, ⟨11, _⟩ => ⟨S_, .f32⟩
  | .hbm, ⟨12, _⟩ => ⟨S50176, .f32⟩
  | .hbm, ⟨13, _⟩ => ⟨S_, .f32⟩
  | .hbm, ⟨14, _⟩ => ⟨S50176, .f32⟩
  | .hbm, ⟨15, _⟩ => ⟨S50176, .i1⟩
  | .hbm, ⟨16, _⟩ => ⟨S_, .f32⟩
  | .hbm, ⟨17, _⟩ => ⟨S50176, .f32⟩
  | .hbm, ⟨18, _⟩ => ⟨S50176, .f32⟩
  | .hbm, ⟨19, _⟩ => ⟨S50176, .f32⟩
  | .hbm, ⟨20, _⟩ => ⟨S_, .f32⟩
  | .hbm, ⟨21, _⟩ => ⟨S_, .f32⟩
  | .hbm, ⟨22, _⟩ => ⟨S50176, .f32⟩
  | .hbm, ⟨23, _⟩ => ⟨S50176, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | _, _ => ⟨S256x50176, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_4 : Ref sig .tc := ⟨.hbm, 20, rfl⟩
abbrev main_call0_v0 : Ref sig .tc := ⟨.hbm, 21, rfl⟩
abbrev main_call0_v1 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_cst_6 : Ref sig .tc := ⟨.hbm, 26, rfl⟩
abbrev main_v15 : Ref sig .tc := ⟨.hbm, 27, rfl⟩

abbrev nD : Nat := 1
abbrev τ : Topo := Topo.v7x

variable {F : FTy → Type} [FloatOps F]

class Facts₀ : Prop where
  bcast_S_S256x50176 : S_.BroadcastsInDim S256x50176 (![] : Fin 0 → Fin S256x50176.rank)
  reducesTo_S256x50176_S50176_d0 : S256x50176.ReducesTo [0] S50176
  h_S_ : 0 < S_.numel
  bcast_S_S50176 : S_.BroadcastsInDim S50176 (![] : Fin 0 → Fin S50176.rank)
  reducesTo_S50176_S_d0 : S50176.ReducesTo [0] S_

variable [Facts₀]

class Facts : Prop extends Facts₀ where

variable [Facts]
-- ==== Proof.Spec.lean ====
/-
  The mathematics both programs compute, stated once over plain index types.

  For inputs `x` and targets `t` of shape [256, 50176], every column `c` has
    * its masked sum of squared errors  S c = Σ_b (x b c − t b c)² · [t b c > 0],
    * its count of positive targets     N c = Σ_b [t b c > 0],
  the column's mean loss is S c / max (N c) 1 where N c > 0 and 0 elsewhere, and the result is the sum of the
  columns' mean losses divided by 50176. The sums are sums of extended reals; only commutativity and associativity of
  the sum are used below (two re-indexings of a whole sum), so no finiteness of the inputs is needed.
-/
import Idealize.ShloMosaic.PureOps.Ideal
import Idealize.ShloMosaic.PureOps.Ideal.Laws
import Idealize.ShloMosaic.Lib.ValueIdx

noncomputable section

namespace Cert.MaskedColumnMean

open Idealize.ShloMosaic Idealize.ShloMosaic.ValueIdx

/-- The inputs' shape: 256 rows (the batch), 50176 columns. -/
abbrev SBC : Shape := ⟨2, ![256, 50176]⟩

/-- The extended real an f32 word denotes. -/
abbrev lit (w : BitVec 32) : EReal := FloatOps.ofBits (F := Ideal) .f32 w

/-- The mask of one target: the bit of `t > 0` read as a number, 1 or 0. -/
def mask (t : EReal) : EReal :=
  FloatOps.uitofp (F := Ideal) .f32 (FloatOps.cmpf (F := Ideal) (φ := .f32) .ogt t (lit 0x00000000#32))

/-- Column `c`'s masked sum of squared errors. -/
def colSum (x t : SBC.Idx → EReal) (c : Fin 50176) : EReal :=
  ∑ b : Fin 256, (x (ix2 b c) - t (ix2 b c)) * (x (ix2 b c) - t (ix2 b c)) * mask (t (ix2 b c))

/-- Column `c`'s count of positive targets. -/
def colCnt (t : SBC.Idx → EReal) (c : Fin 50176) : EReal :=
  ∑ b : Fin 256, mask (t (ix2 b c))

/-- A column's mean loss from its sum `s` and its count `n`: `s / max n 1` where `n > 0`, else 0. -/
def colMean (s n : EReal) : EReal :=
  Scalar.select (FloatOps.cmpf (F := Ideal) (φ := .f32) .ogt n (lit 0x00000000#32))
    (FloatOps.hostDivf (F := Ideal) (φ := .f32) s (max n (lit 0x3F800000#32))) (lit 0x00000000#32)

/-- The result from the columns' sums and counts: the sum of the columns' mean losses, over 50176. -/
def lossOf (s n : Fin 50176 → EReal) : EReal :=
  FloatOps.hostDivf (F := Ideal) (φ := .f32) (lit 0x00000000#32 + ∑ c : Fin 50176, colMean (s c) (n c)) (lit 0x47440000#32)

/-- The result as a function of the inputs. -/
def loss (x t : SBC.Idx → EReal) : EReal := lossOf (colSum x t) (colCnt t)

/-! ## Two re-indexings of a whole sum -/

/-- A sum over the indices of a [50176] array is the sum over its one coordinate. -/
theorem sum_idx1 (f : (⟨1, ![50176]⟩ : Shape).Idx → EReal) : ∑ j, f j = ∑ c : Fin 50176, f (ix1 c) :=
  Fintype.sum_equiv ⟨fun j => j 0, fun c => ix1 c, fun j => (eq_ix1 j).symm, fun _ => rfl⟩ _ _
    (fun j => congrArg f (eq_ix1 j))

/-- A sum over the indices of a [1, 50176] array is the sum over its column coordinate. -/
theorem sum_idx_row (f : (⟨2, ![1, 50176]⟩ : Shape).Idx → EReal) : ∑ j, f j = ∑ c : Fin 50176, f (ix2 (0 : Fin 1) c) := by
  have e : ∀ j : (⟨2, ![1, 50176]⟩ : Shape).Idx, j = ix2 (0 : Fin 1) (j 1) := fun j => by
    funext a
    match a with
    | ⟨0, _⟩ => exact Fin.ext (by have := (j 0).isLt; change (j 0).val < 1 at this; show (j 0).val = 0; omega)
    | ⟨1, _⟩ => rfl
  exact Fintype.sum_equiv ⟨fun j => j 1, fun c => ix2 (0 : Fin 1) c, fun j => (e j).symm, fun _ => rfl⟩ _ _
    (fun j => congrArg f (e j))

/-! ## The mask, as the kernel spells it -/

/-- A one-bit word widened to 32 bits and read signed is the bit read unsigned. -/
theorem mask_widened (b : BitVec 1) :
    FloatOps.sitofp (F := Ideal) .f32 (b.setWidth 32) = FloatOps.uitofp (F := Ideal) .f32 b := by
  have h : ∀ b : BitVec 1, (b.setWidth 32).toInt = (b.toNat : Int) := by decide
  show (((b.setWidth 32).toInt : ℝ) : EReal) = ((b.toNat : ℝ) : EReal)
  rw [h b]; rfl

end Cert.MaskedColumnMean

end
-- ==== Proof.RefValue.lean ====
/-
  The reference's result is the specification's `loss` of its two arguments.

  Read one operation at a time: the two column reductions are the initial value 0 plus the sum over the 256 rows of
  the masked squared error, resp. of the mask, at (row, column); the operations after them act column by column; the
  last reduction is 0 plus the sum over all columns, and the quotient by 50176 closes it.
-/
import proofs.«114153_j33208687133246_1_alg».proof.Proof.RefReadPatched
import proofs.«114153_j33208687133246_1_alg».proof.Proof.Spec

noncomputable section

namespace Cert.ReferenceIdeal.RefValue

open Cert.ReferenceIdeal Cert.ReferenceIdeal.ReadP Cert.MaskedColumnMean
open Idealize.ShloMosaic Idealize.ShloMosaic.ValueIdx

/-- The row index the column reductions read: row `b` of column `c`. -/
theorem idx_row (c : Fin 50176) (b : Fin 256) : idx_main_v7 (ix1 c) b = ix2 b c :=
  funext fun a => by match a with | ⟨0, _⟩ => rfl | ⟨1, _⟩ => rfl

/-- The mask stage at (row, column) is the specification's mask of the target there. -/
theorem mask_at (t : SBC.Idx → EReal) (j : SBC.Idx) : val_main_v4 (F := Ideal) t j = mask (t j) := by
  rw [val_main_v4_apply, val_main_v3_apply, val_main_v2_apply]
  rfl

/-- The count reduction at column `c`: the number of positive targets of the column. -/
theorem cnt_at (t : SBC.Idx → EReal) (c : Fin 50176) : val_main_v7 (F := Ideal) t (ix1 c) = colCnt t c := by
  rw [val_main_v7_apply, val_main_cst_1_apply]
  show Ideal.ofBits .f32 0x00000000#32 + _ = _
  rw [Ideal.ofBits_zero_f32, zero_add]
  unfold colCnt
  refine Finset.sum_congr rfl fun b _ => ?_
  rw [idx_row, mask_at]

/-- The sum reduction at column `c`: the column's masked sum of squared errors. -/
theorem sum_at (x t : SBC.Idx → EReal) (c : Fin 50176) : val_main_v6 (F := Ideal) x t (ix1 c) = colSum x t c := by
  rw [val_main_v6_apply, val_main_cst_0_apply]
  show Ideal.ofBits .f32 0x00000000#32 + _ = _
  rw [Ideal.ofBits_zero_f32, zero_add]
  unfold colSum
  refine Finset.sum_congr rfl fun b _ => ?_
  show val_main_v5 (F := Ideal) x t (idx_main_v7 (ix1 c) b) = _
  rw [idx_row, val_main_v5_apply, val_main_v1_apply, val_main_v0_apply, mask_at]
  rfl

/-- The selected mean at column `c`. -/
theorem mean_at (x t : SBC.Idx → EReal) (c : Fin 50176) :
    val_main_v13 (F := Ideal) x t (ix1 c) = colMean (colSum x t c) (colCnt t c) := by
  rw [val_main_v13_apply, val_main_v9_apply, val_main_v12_apply, val_main_v11_apply, val_main_call0_v1_apply,
    val_main_v8_apply, val_main_v10_apply, cnt_at, sum_at]
  rfl

/-- The reference's result stage is the specification's `loss` of the two arguments, at its one index. -/
theorem result_eq (x t : SBC.Idx → EReal) : val_main_v15 (F := Ideal) x t = fun _ => loss x t := by
  funext i
  rw [val_main_v15_apply, val_main_v14_apply, sum_idx1]
  unfold loss lossOf
  refine congrArg₂ _ (congrArg₂ _ rfl (Finset.sum_congr rfl fun c _ => mean_at x t c)) rfl

end Cert.ReferenceIdeal.RefValue

end
-- ==== Proof.KernelPayload.lean ====
/-
  The kernel body's two stored values, read at an index.

  The body loads a [256, 3584] block of the inputs and of the targets. The value it stores for the sums is the lane
  reduction over the 256 rows of (x − t)² · [t > 0], given a leading unit axis; the value it stores for the counts is
  the same reduction of the mask alone. At row 0, column q, each is the sum over the block's rows at column q.
-/
import proofs.«114153_j33208687133246_1_alg».proof.Proof.Gen.KernelIdeal.Skeleton
import proofs.«114153_j33208687133246_1_alg».proof.Proof.Spec
import Idealize.ShloMosaic.Lib.ValueLayout
import Idealize.ShloMosaic.PureOps.Ideal.Laws

noncomputable section

namespace Cert.KernelIdeal.Payload

open Cert.KernelIdeal Cert.KernelIdeal.Gen Cert.MaskedColumnMean
open Idealize.ShloMosaic Idealize.ShloMosaic.ValueIdx

/-- The mask the body computes from a target block, at an index: the specification's mask of that target. -/
theorem mask_at (v1 : FVec Ideal S256x3584 .f32) (j : S256x3584.Idx) : k0_pay1 (F := Ideal) v1 j = mask (v1 j) :=
  mask_widened _

/-- The index the row reduction reads for column `q` at row `b`. -/
theorem lift_row (q : Fin 3584) (b : Fin 256) : reduces_S256x3584_S3584.lift (ix1 q) b = ix2 b q :=
  funext fun a => Fin.ext (by match a with | ⟨0, _⟩ => rfl | ⟨1, _⟩ => rfl)

/-- The stored sums at (0, q): the sum over the block's rows of the masked squared error at column `q`. -/
theorem sum_at (v0 v1 : FVec Ideal S256x3584 .f32) (u : Fin 1) (q : Fin 3584) :
    k0_pay2 (F := Ideal) v0 v1 (ix2 u q)
      = ∑ b : Fin 256, (v0 (ix2 b q) - v1 (ix2 b q)) * (v0 (ix2 b q) - v1 (ix2 b q)) * mask (v1 (ix2 b q)) := by
  unfold k0_pay2
  refine (shapeCast_a_1a_apply _ shapeCasts_S3584_S1x3584 u q).trans ?_
  refine (Ideal.multiReduction_add_single _ 0x00000000#32 reduces_S256x3584_S3584 (.inl rfl) rfl (ix1 q)).trans ?_
  refine Finset.sum_congr rfl fun (b : Fin 256) _ => ?_
  rw [lift_row]
  show _ * k0_pay1 (F := Ideal) v1 (ix2 b q) = _
  rw [mask_at]
  rfl

/-- The stored counts at (0, q): the sum over the block's rows of the mask at column `q`. -/
theorem cnt_at (v1 : FVec Ideal S256x3584 .f32) (u : Fin 1) (q : Fin 3584) :
    k0_pay3 (F := Ideal) v1 (ix2 u q) = ∑ b : Fin 256, mask (v1 (ix2 b q)) := by
  unfold k0_pay3
  refine (shapeCast_a_1a_apply _ shapeCasts_S3584_S1x3584 u q).trans ?_
  refine (Ideal.multiReduction_add_single _ 0x00000000#32 reduces_S256x3584_S3584 (.inl rfl) rfl (ix1 q)).trans ?_
  refine Finset.sum_congr rfl fun (b : Fin 256) _ => ?_
  rw [lift_row]
  exact mask_at v1 (ix2 b q)

end Cert.KernelIdeal.Payload

end
-- ==== Proof.KernelArrays.lean ====
/-
  The region's two output arrays after the run.

  Grid point `k` (of 14) reads columns 3584·k … 3584·k + 3583 of the inputs and of the targets, all 256 rows, and
  writes the same columns of the one-row arrays of sums and counts. So what point `k` writes back is block `k` of
  one function of the whole argument arrays — at (0, c) the specification's column sum, resp. column count, of column
  `c` — and the 14 blocks cover the row: after the run each array is that function.
-/
import proofs.«114153_j33208687133246_1_alg».proof.Proof.Gen.KernelIdeal.Frame
import proofs.«114153_j33208687133246_1_alg».proof.Proof.KernelPayload
import Idealize.ShloMosaic.Lib.Pipeline.Value

noncomputable section

namespace Cert.KernelIdeal.Arrays

open Cert.KernelIdeal Cert.KernelIdeal.Gen Cert.MaskedColumnMean
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

theorem zero_offsets : (![0, 0] : Fin 2 → Nat) = fun _ => 0 := funext fun a => by fin_cases a <;> rfl

/-- The inputs' and the targets' block at a point, and the two argument arrays as the region finds them, at their
    literal types. -/
abbrev xblk (c : Dev nD) (t : Fin cfg0.N) : FVec Ideal S256x3584 .f32 := iblk m c 0 t
abbrev tblk (c : Dev nD) (t : Fin cfg0.N) : FVec Ideal S256x3584 .f32 := iblk m c 1 t
abbrev xarr (c : Dev nD) : SBC.Idx → EReal := V m c main_arg0
abbrev tarr (c : Dev nD) : SBC.Idx → EReal := V m c main_arg1

/-- The column sums and the column counts as one-row arrays. -/
abbrev rowSum (x t : SBC.Idx → EReal) : S1x50176.Idx → EReal := fun i => colSum x t (i 1)
abbrev rowCnt (t : SBC.Idx → EReal) : S1x50176.Idx → EReal := fun i => colCnt t (i 1)

/-- The printed index maps over the grid: every window sits at block row 0, and the four windows move together along
    the columns. -/
theorem idx_facts : ∀ t : Fin cfg0.N, win0_0.index t (0 : Fin 2) = 0 ∧ win0_0.index t (1 : Fin 2) = win0_2.index t (1 : Fin 2)
    ∧ win0_1.index t (0 : Fin 2) = 0 ∧ win0_1.index t (1 : Fin 2) = win0_2.index t (1 : Fin 2)
    ∧ win0_2.index t (0 : Fin 2) = 0 ∧ win0_3.index t (0 : Fin 2) = 0
    ∧ win0_3.index t (1 : Fin 2) = win0_2.index t (1 : Fin 2) ∧ win0_2.index t (1 : Fin 2) ≤ 13 :=
  (by decide +kernel : ∀ t : Fin grid0.N, _)

/-- Every one of the 14 column blocks is some point's, for both outputs. -/
theorem idx_onto : ∀ k : Fin 14, ∃ t : Fin cfg0.N, win0_2.index t = ![0, k.val] ∧ win0_3.index t = ![0, k.val] :=
  (by decide +kernel : ∀ k : Fin 14, ∃ t : Fin grid0.N, win0_2.index t = ![0, k.val] ∧ win0_3.index t = ![0, k.val])

/-- The inputs' block at (b, q) is the inputs' array at row `b` of the column the point's block starts at plus `q`. -/
theorem xblk_at (c : Dev nD) (t : Fin cfg0.N) (b : Fin 256) (q : Fin 3584) (k : Fin 50176)
    (hk : k.val = win0_2.index t (1 : Fin 2) * 3584 + q.val) : xblk m c t (ix2 b q) = xarr m c (ix2 b k) := by
  obtain ⟨e0, e1, e2, e3, e4, e5, e6, e7⟩ := idx_facts t
  show V m c main_arg0 (((cfg0.win 0).blk t).view.emb (ix2 b q)) = V m c main_arg0 (ix2 b k)
  refine congrArg (V m c main_arg0) (funext fun a => Fin.ext ?_)
  match a with
  | ⟨0, _⟩ => show win0_0.index t (0 : Fin 2) * 256 + 1 * b.val = b.val; omega
  | ⟨1, _⟩ => show win0_0.index t (1 : Fin 2) * 3584 + 1 * q.val = k.val; omega

/-- The same for the targets. -/
theorem tblk_at (c : Dev nD) (t : Fin cfg0.N) (b : Fin 256) (q : Fin 3584) (k : Fin 50176)
    (hk : k.val = win0_2.index t (1 : Fin 2) * 3584 + q.val) : tblk m c t (ix2 b q) = tarr m c (ix2 b k) := by
  obtain ⟨e0, e1, e2, e3, e4, e5, e6, e7⟩ := idx_facts t
  show V m c main_arg1 (((cfg0.win 1).blk t).view.emb (ix2 b q)) = V m c main_arg1 (ix2 b k)
  refine congrArg (V m c main_arg1) (funext fun a => Fin.ext ?_)
  match a with
  | ⟨0, _⟩ => show win0_1.index t (0 : Fin 2) * 256 + 1 * b.val = b.val; omega
  | ⟨1, _⟩ => show win0_1.index t (1 : Fin 2) * 3584 + 1 * q.val = k.val; omega

/-! ## The sums -/

/-- What point `t` writes back to the array of sums is block `t` of the column sums of the argument arrays. -/
theorem flushed_sum (c : Dev nD) (t : Fin cfg0.N) :
    (dats m 0 c).flushed 2 t = ((cfg0.win 2).blk t).view.read (Elt Ideal) (rowSum (xarr m c) (tarr m c)) := by
  show (cfg0.win 2).cut (grid0.coords t) ((dats m 0 c).after 2 t) = _
  rw [after0_2]
  unfold out0_2
  rw [View.canon_unit_zero zero_offsets]
  simp only [View.ld_unit_zero (S := S256x3584) zero_offsets]
  funext j
  obtain ⟨p, q, rfl⟩ : ∃ (p : Fin 1) (q : Fin 3584), j = ix2 p q := ⟨j 0, j 1, eq_ix2 j⟩
  show k0_pay2 (F := Ideal) (xblk m c t) (tblk m c t) (ix2 p q)
    = colSum (xarr m c) (tarr m c) ((((cfg0.win 2).blk t).view.emb (ix2 p q)) 1)
  have hk : ((((cfg0.win 2).blk t).view.emb (ix2 p q)) 1).val = win0_2.index t (1 : Fin 2) * 3584 + q.val := by
    show win0_2.index t (1 : Fin 2) * 3584 + 1 * q.val = _; omega
  refine (Payload.sum_at (xblk m c t) (tblk m c t) p q).trans ?_
  unfold colSum
  refine Finset.sum_congr rfl fun b _ => ?_
  rw [xblk_at m c t b q _ hk, tblk_at m c t b q _ hk]

/-- An index of the array of sums is in point `t`'s block iff each coordinate is in the block's range. -/
theorem mem_blk_sum (t : Fin cfg0.N) (i : S1x50176.Idx) :
    i ∈ ((cfg0.win 2).blk t).view.set ↔ ∀ a : Fin 2, win0_2.index t a * S1x3584.size a ≤ (i a).val ∧ (i a).val < win0_2.index t a * S1x3584.size a + S1x3584.size a := by
  show i ∈ ((View.whole main_call0_v0_0).slice (win0_2.rect t)).set ↔ _
  rw [View.set_slice_whole, Rect.mem_set_unit]
  exact Iff.rfl

/-- Every index of the array of sums is in the block of the point that owns its column's block. -/
theorem cover_sum (i : S1x50176.Idx) :
    ∃ t : Fin cfg0.N, (cfg0.win 2).flush t = true ∧ i ∈ ((cfg0.win 2).blk t).view.set := by
  have hi0 : (i 0).val < 1 := (i 0).isLt
  have hi1 : (i 1).val < 50176 := (i 1).isLt
  obtain ⟨t, ht, -⟩ := idx_onto ⟨(i 1).val / 3584, by omega⟩
  have q0 : win0_2.index t (0 : Fin 2) = 0 := congrFun ht 0
  have q1 : win0_2.index t (1 : Fin 2) = (i 1).val / 3584 := congrFun ht 1
  refine ⟨t, flush0_2 t, ?_⟩
  rw [mem_blk_sum]
  intro a
  match a with
  | ⟨0, _⟩ => show win0_2.index t (0 : Fin 2) * 1 ≤ (i 0).val ∧ (i 0).val < win0_2.index t (0 : Fin 2) * 1 + 1; omega
  | ⟨1, _⟩ => show win0_2.index t (1 : Fin 2) * 3584 ≤ (i 1).val ∧ (i 1).val < win0_2.index t (1 : Fin 2) * 3584 + 3584; omega

/-- The array of sums after the run: the column sums of the argument arrays. -/
theorem final_sum (c : Dev nD) : (dats m 0 c).arrAt 2 cfg0.N = rowSum (xarr m c) (tarr m c) :=
  (dats m 0 c).arrAt_eq_of_cover 2 _ (fun t _ => flushed_sum m c t) cover_sum

/-! ## The counts -/

/-- What point `t` writes back to the array of counts is block `t` of the column counts of the targets' array. -/
theorem flushed_cnt (c : Dev nD) (t : Fin cfg0.N) :
    (dats m 0 c).flushed 3 t = ((cfg0.win 3).blk t).view.read (Elt Ideal) (rowCnt (tarr m c)) := by
  obtain ⟨e0, e1, e2, e3, e4, e5, e6, e7⟩ := idx_facts t
  show (cfg0.win 3).cut (grid0.coords t) ((dats m 0 c).after 3 t) = _
  rw [after0_3]
  unfold out0_3
  rw [View.canon_unit_zero zero_offsets]
  simp only [View.ld_unit_zero (S := S256x3584) zero_offsets]
  funext j
  obtain ⟨p, q, rfl⟩ : ∃ (p : Fin 1) (q : Fin 3584), j = ix2 p q := ⟨j 0, j 1, eq_ix2 j⟩
  show k0_pay3 (F := Ideal) (tblk m c t) (ix2 p q) = colCnt (tarr m c) ((((cfg0.win 3).blk t).view.emb (ix2 p q)) 1)
  have hk : ((((cfg0.win 3).blk t).view.emb (ix2 p q)) 1).val = win0_2.index t (1 : Fin 2) * 3584 + q.val := by
    show win0_3.index t (1 : Fin 2) * 3584 + 1 * q.val = _; omega
  refine (Payload.cnt_at (tblk m c t) p q).trans ?_
  unfold colCnt
  refine Finset.sum_congr rfl fun b _ => ?_
  rw [tblk_at m c t b q _ hk]

/-- An index of the array of counts is in point `t`'s block iff each coordinate is in the block's range. -/
theorem mem_blk_cnt (t : Fin cfg0.N) (i : S1x50176.Idx) :
    i ∈ ((cfg0.win 3).blk t).view.set ↔ ∀ a : Fin 2, win0_3.index t a * S1x3584.size a ≤ (i a).val ∧ (i a).val < win0_3.index t a * S1x3584.size a + S1x3584.size a := by
  show i ∈ ((View.whole main_call0_v0_1).slice (win0_3.rect t)).set ↔ _
  rw [View.set_slice_whole, Rect.mem_set_unit]
  exact Iff.rfl

/-- Every index of the array of counts is in the block of the point that owns its column's block. -/
theorem cover_cnt (i : S1x50176.Idx) :
    ∃ t : Fin cfg0.N, (cfg0.win 3).flush t = true ∧ i ∈ ((cfg0.win 3).blk t).view.set := by
  have hi0 : (i 0).val < 1 := (i 0).isLt
  have hi1 : (i 1).val < 50176 := (i 1).isLt
  obtain ⟨t, -, ht⟩ := idx_onto ⟨(i 1).val / 3584, by omega⟩
  have q0 : win0_3.index t (0 : Fin 2) = 0 := congrFun ht 0
  have q1 : win0_3.index t (1 : Fin 2) = (i 1).val / 3584 := congrFun ht 1
  refine ⟨t, flush0_3 t, ?_⟩
  rw [mem_blk_cnt]
  intro a
  match a with
  | ⟨0, _⟩ => show win0_3.index t (0 : Fin 2) * 1 ≤ (i 0).val ∧ (i 0).val < win0_3.index t (0 : Fin 2) * 1 + 1; omega
  | ⟨1, _⟩ => show win0_3.index t (1 : Fin 2) * 3584 ≤ (i 1).val ∧ (i 1).val < win0_3.index t (1 : Fin 2) * 3584 + 3584; omega

/-- The array of counts after the run: the column counts of the targets' array. -/
theorem final_cnt (c : Dev nD) : (dats m 0 c).arrAt 3 cfg0.N = rowCnt (tarr m c) :=
  (dats m 0 c).arrAt_eq_of_cover 3 _ (fun t _ => flushed_cnt m c t) cover_cnt

end Cert.KernelIdeal.Arrays

end
-- ==== Proof.KernelTail.lean ====
/-
  The host operations after the region, as one function of the region's two results.

  From the [1, 50176] arrays of column sums and column counts the program selects, column by column, sum / max(count, 1)
  where the count is positive and 0 elsewhere, adds the 50176 selected values to 0, and divides by 50176. With the
  arrays' row read at column `c` as `s c` and `n c` this is the specification's `lossOf s n`: the last reduction
  runs over every index of a one-row array, which is the sum over its columns.
-/
import proofs.«114153_j33208687133246_1_alg».proof.Proof.Gen.KernelIdeal
import proofs.«114153_j33208687133246_1_alg».proof.Proof.Spec
import Idealize.ShloMosaic.Lib.Pipeline.Value
import Idealize.ShloMosaic.PureOps.Ideal.Laws

noncomputable section

namespace Cert.KernelIdeal.Tail

open Cert.KernelIdeal Cert.KernelIdeal.Gen Cert.MaskedColumnMean
open Idealize.ShloMosaic Idealize.ShloMosaic.ValueIdx

/-- The operations after the region, composed: the result from the arrays of column sums and column counts. -/
def tail (SUM CNT : FVec Ideal S1x50176 .f32) : FVec Ideal S_ .f32 :=
  Host.divf (F := Ideal)
    (Host.reduceAdd (F := Ideal)
      (select (cmpf (F := Ideal) .ogt CNT (broadcastInDim S1x50176 ![] bcast_S_S1x50176 (constant (F := Ideal) S_ .f32 0x00000000#32)))
        (Host.divf (F := Ideal) SUM (maximumf CNT (broadcastInDim S1x50176 ![] bcast_S_S1x50176 (constant (F := Ideal) S_ .f32 0x3F800000#32))))
        (broadcastInDim S1x50176 ![] bcast_S_S1x50176 (id (constant (F := Ideal) S_ .f32 0x00000000#32))))
      (constant (F := Ideal) S_ .f32 0x00000000#32) reducesTo_S1x50176_S_d0_1 h_S_)
    (constant (F := Ideal) S_ .f32 0x47440000#32)

/-- A scalar spread over the row reads the scalar everywhere. -/
theorem bcast_at (y : S_.Idx → EReal) (j : S1x50176.Idx) :
    broadcastInDim S1x50176 ![] bcast_S_S1x50176 y j = y ix0 :=
  broadcastInDim_apply _ bcast_S_S1x50176 y j ix0 (fun a => a.elim0)

/-- The selected mean at column `c` of the row. -/
theorem mean_at (SUM CNT : FVec Ideal S1x50176 .f32) (s n : Fin 50176 → EReal)
    (hs : ∀ c, SUM (ix2 (0 : Fin 1) c) = s c) (hn : ∀ c, CNT (ix2 (0 : Fin 1) c) = n c) (c : Fin 50176) :
    select (cmpf (F := Ideal) .ogt CNT (broadcastInDim S1x50176 ![] bcast_S_S1x50176 (constant (F := Ideal) S_ .f32 0x00000000#32)))
        (Host.divf (F := Ideal) SUM (maximumf CNT (broadcastInDim S1x50176 ![] bcast_S_S1x50176 (constant (F := Ideal) S_ .f32 0x3F800000#32))))
        (broadcastInDim S1x50176 ![] bcast_S_S1x50176 (id (constant (F := Ideal) S_ .f32 0x00000000#32))) (ix2 (0 : Fin 1) c)
      = colMean (s c) (n c) := by
  rw [select_apply, cmpf_apply, bcast_at, bcast_at]
  show Scalar.select (FloatOps.cmpf (F := Ideal) .ogt (CNT (ix2 (0 : Fin 1) c)) _)
      (FloatOps.hostDivf (F := Ideal) (SUM (ix2 (0 : Fin 1) c)) (max (CNT (ix2 (0 : Fin 1) c)) (broadcastInDim S1x50176 ![] bcast_S_S1x50176 (constant (F := Ideal) S_ .f32 0x3F800000#32) (ix2 (0 : Fin 1) c)))) _ = _
  rw [bcast_at, hs, hn]
  rfl

/-- The operations after the region compute the specification's `lossOf` of the row's sums and counts. -/
theorem tail_eq (SUM CNT : FVec Ideal S1x50176 .f32) (s n : Fin 50176 → EReal)
    (hs : ∀ c, SUM (ix2 (0 : Fin 1) c) = s c) (hn : ∀ c, CNT (ix2 (0 : Fin 1) c) = n c) :
    tail SUM CNT = fun _ => lossOf s n := by
  funext i
  unfold tail lossOf
  show FloatOps.hostDivf (F := Ideal) (Host.reduceAdd (F := Ideal) _ _ reducesTo_S1x50176_S_d0_1 h_S_ i) _ = _
  simp only [Host.reduceAdd, Ideal.hostReduceAdd_def]
  rw [Ideal.hostReduceAdd_total reducesTo_S1x50176_S_d0_1 (fun b => b.elim0), sum_idx_row]
  exact congrArg₂ _ (congrArg₂ _ rfl (Finset.sum_congr rfl fun c _ => mean_at SUM CNT s n hs hn c)) rfl

end Cert.KernelIdeal.Tail

end
-- ==== Proof.KernelValue.lean ====
/-
  The kernel program's run, read: its result is the specification's `loss` of its two arguments.

  After the region the arrays of column sums and column counts hold the specification's column sums and counts of the
  argument arrays (the arrays module); the operations after the region turn those two arrays into the result (the
  tail module). Neither argument array is written.
-/
import proofs.«114153_j33208687133246_1_alg».proof.Proof.Gen.KernelIdeal.Frame
import proofs.«114153_j33208687133246_1_alg».proof.Proof.KernelArrays
import proofs.«114153_j33208687133246_1_alg».proof.Proof.KernelTail
import Idealize.ShloMosaic.Lib.StableHlo.Run

noncomputable section

namespace Cert.KernelIdeal.KValue

open Cert.KernelIdeal Cert.KernelIdeal.Gen Cert.KernelIdeal.Arrays Cert.MaskedColumnMean
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The array of column sums as the operations after the region find it. -/
abbrev sumBuf (c : Dev nD) : FVec Ideal S1x50176 .f32 :=
  Pipeline.withArrays (cfgs 0).spec c (V0 m c) (fun w => (dats m 0 c).arrAt w (cfgs 0).N) (Proc.devRef .tc main_call0_v0_0)

/-- The array of column counts as the operations after the region find it. -/
abbrev cntBuf (c : Dev nD) : FVec Ideal S1x50176 .f32 :=
  Pipeline.withArrays (cfgs 0).spec c (V0 m c) (fun w => (dats m 0 c).arrAt w (cfgs 0).N) (Proc.devRef .tc main_call0_v0_1)

theorem sumBuf_eq (c : Dev nD) : sumBuf m c = rowSum (xarr m c) (tarr m c) :=
  (Pipeline.withArrays_arr spec0 launch0.win.arr_inj c _ _ 2).trans (final_sum m c)

theorem cntBuf_eq (c : Dev nD) : cntBuf m c = rowCnt (tarr m c) :=
  (Pipeline.withArrays_arr spec0 launch0.win.arr_inj c _ _ 3).trans (final_cnt m c)

/-- The result buffer after the operations that follow the region: those operations of the two arrays. -/
theorem result_tail (c : Dev nD) :
    Pipeline.afterTail₀ cfgs (dats m) 0 (V0 m) [hostOps1] c main_v0 = Tail.tail (sumBuf m c) (cntBuf m c) := by
  unfold Pipeline.afterTail₀
  show StableHlo.after hostOps1 _ (Proc.devRef .tc main_v0) = _
  after_results
  rfl

/-- So the result buffer holds the specification's `loss` of the argument arrays. -/
theorem result_eq (c : Dev nD) :
    Pipeline.afterTail₀ cfgs (dats m) 0 (V0 m) [hostOps1] c main_v0
      = fun _ => loss (m ((c.tc : Thread nD τ).loc main_arg0)) (m ((c.tc : Thread nD τ).loc main_arg1)) := by
  rw [result_tail, sumBuf_eq, cntBuf_eq]
  exact Tail.tail_eq _ _ (colSum (xarr m c) (tarr m c)) (colCnt (tarr m c)) (fun _ => rfl) (fun _ => rfl)

/-- The result buffer bypasses the region: it is unscoped and no window's array. -/
theorem result_bypasses : main_v0 ∈ Pipeline.restRefs sig spec0 :=
  Pipeline.mem_restRefs_of main_v0 rfl (by decide)

/-- Every weakly fair execution of the kernel program terminates with the result at `loss` of the arguments and the
    arguments unchanged. -/
theorem run : θ_run defs (onTc (τ := τ) (main (F := Ideal))) ⟨m, fun _ => 0, ρ⟩ fun r => ∀ c : Dev nD,
      r.2.mem ((c.tc : Thread nD τ).loc main_v0)
        = (fun _ => loss (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).2 main_v0 result_bypasses).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KValue

end
-- ==== Proof.lean ====
/-
  The certificate of the masked column-mean squared error: a TPU kernel that, per block of 3584 columns, reduces the
  256 rows of (x − t)² · [t > 0] and of [t > 0] to one-row arrays of column sums and counts, followed by the host's
  per-column mean (sum / max(count, 1) where the count is positive, else 0), its sum over the 50176 columns and the
  quotient by 50176 — against the same computation written with whole-array reductions.

  Both programs compute the specification's `loss` (Proof/Spec.lean) of their arguments at the extended reals: the
  kernel's one-row arrays are the reference's column reductions column by column (the same sum over the 256 rows, in
  the same terms), the kernel's mask (the compare bit widened to 32 bits and read signed) is the reference's (the bit
  read unsigned), and the last reduction over a one-row array is the reduction over its columns. Only re-indexings of
  whole sums are used, so the inputs' finiteness is not needed. The ideal pass rewrote nothing, so `preserves` is trivial.
-/
import proofs.«114153_j33208687133246_1_alg».proof.Defs
import proofs.«114153_j33208687133246_1_alg».proof.Proof.Gen.Kernel
import proofs.«114153_j33208687133246_1_alg».proof.Proof.Gen.Kernel.Skeleton
import proofs.«114153_j33208687133246_1_alg».proof.Proof.Gen.Kernel.Launch
import proofs.«114153_j33208687133246_1_alg».proof.Proof.Gen.Kernel.Points
import proofs.«114153_j33208687133246_1_alg».proof.Proof.Gen.Kernel.Frame
import proofs.«114153_j33208687133246_1_alg».proof.Proof.Gen.KernelIdeal
import proofs.«114153_j33208687133246_1_alg».proof.Proof.Gen.KernelIdeal.Skeleton
import proofs.«114153_j33208687133246_1_alg».proof.Proof.Gen.KernelIdeal.Launch
import proofs.«114153_j33208687133246_1_alg».proof.Proof.Gen.KernelIdeal.Points
import proofs.«114153_j33208687133246_1_alg».proof.Proof.Gen.KernelIdeal.Frame
import proofs.«114153_j33208687133246_1_alg».proof.Proof.Gen.ReferenceIdeal
import proofs.«114153_j33208687133246_1_alg».proof.Proof.Gen.Pre_finite_inputs
import proofs.«114153_j33208687133246_1_alg».proof.Proof.RefReadPatched
import proofs.«114153_j33208687133246_1_alg».proof.Proof.RefValue
import proofs.«114153_j33208687133246_1_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Both runs end with the result at the specification's `loss` of the arguments, and the arguments agree. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v15_eq, Cert.ReferenceIdeal.RefValue.result_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
